-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S10000x64 : Shape := ⟨2, ![10000, 64]⟩
abbrev S10000x1 : Shape := ⟨2, ![10000, 1]⟩
abbrev S1000000x64 : Shape := ⟨2, ![1000000, 64]⟩
abbrev S1x64 : Shape := ⟨2, ![1, 64]⟩

abbrev nBuf : Space → Nat
  | .hbm => 31
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S100000x1, .f32⟩
  | .hbm, ⟨15, _⟩ => ⟨S100000x64, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S1x64, .f32⟩
  | .hbm, ⟨30, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_1_0_0_n_n_wf : DotDims.WF S10000x64 S64x64 S10000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S_, .f32⟩
  | .hbm, ⟨31, _⟩ => ⟨S100000x64, .f32⟩
  | .hbm, ⟨32, _⟩ => ⟨S1000000x1, .i32⟩
  | .hbm, ⟨33, _⟩ => ⟨S100000x64, .f32⟩
  | .hbm, ⟨34, _⟩ => ⟨S100000x64, .f32⟩
  | .hbm, ⟨35, _⟩ => ⟨S64x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.NormRegion.lean ====
/-
  The first kernel region's result as one function of the two arrays it reads. The region walks ten blocks of
  10000 rows; at each block it multiplies every entry of the block of the [100000 × 64] table by the reciprocal
  square root of (the row's entry of the [100000 × 1] column, plus one). Block t of the output is rows
  10000·t … 10000·t + 9999 of one whole-array function, and the ten blocks cover the array, so after the region
  the output array IS that function: entry (r, c) is table[r, c] · rsqrt(column[r, 0] + 1).
-/
import proofs.«101020_j90615220011124_1_alg».proof.Proof.Gen.KernelIdeal.Frame
import Idealize.ShloMosaic.Lib.Pipeline.Value
import Idealize.ShloMosaic.Lib.ValueIdx

set_option maxRecDepth 16384

noncomputable section

namespace Cert.KernelIdeal.NormRegion

open Cert.KernelIdeal Cert.KernelIdeal.Gen
open Idealize.ShloMosaic Idealize.ShloMosaic.TcCoe Idealize.SL.Sem Idealize.ShloMosaic.ValueIdx
open Idealize.ShloMosaic.Pipeline (Dat)

/-- The column entry a table index scales by: same row, the column's only position. -/
abbrev colOf (i : S100000x64.Idx) : S100000x1.Idx := fun a => match a with
  | ⟨0, _⟩ => ⟨(i 0).val, (i 0).isLt⟩
  | ⟨1, _⟩ => ⟨0, Nat.one_pos⟩

/-- The same inside one block of 10000 rows. -/
abbrev colOfBlk (j : S10000x64.Idx) : S10000x1.Idx := fun a => match a with
  | ⟨0, _⟩ => ⟨(j 0).val, (j 0).isLt⟩
  | ⟨1, _⟩ => ⟨0, Nat.one_pos⟩

/-- The whole-array function: entry (r, c) of the table times rsqrt(column entry of row r, plus the literal one). -/
def scaled (x : FVec Ideal S100000x64 .f32) (d : FVec Ideal S100000x1 .f32) : FVec Ideal S100000x64 .f32 :=
  fun i => x i * Ideal.rsqrt (d (colOf i) + Ideal.ofBits .f32 0x3F800000#32)

/-- The body's arithmetic at one entry of a block: the table block's entry times rsqrt(the column block's entry of
    the same row, plus one). The identity cast drops out and the column is read at the row. -/
theorem pay_apply (v0 : FVec Ideal S10000x1 .f32) (v5 : FVec Ideal S10000x64 .f32) (j : S10000x64.Idx) :
    k0_pay1 (F := Ideal) v0 v5 j = v5 j * Ideal.rsqrt (v0 (colOfBlk j) + Ideal.ofBits .f32 0x3F800000#32) := by
  unfold k0_pay1
  show v5 j * (broadcastTo S10000x64 (rsqrt (F := Ideal) (addf (F := Ideal) (shapeCast S10000x1 v0 shapeCasts_S10000x1_S10000x1)
      (broadcast S10000x1 (Scalar.ofBits (F := Ideal) .f32 0x3F800000#32)))) broadcasts_S10000x1_S10000x64 j) = _
  rw [broadcastTo_apply _ broadcasts_S10000x1_S10000x64 j (colOfBlk j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]
  rw [shapeCast_self]
  rfl

theorem hz : (![0, 0] : Fin 2 → Nat) = fun _ => 0 := funext fun a => by fin_cases a <;> rfl

/-- The printed index maps over the ten points: all three windows sit at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole-array function of the two arrays as the region finds them. -/
theorem flushed_eq (c : Dev nD) (t : Fin cfg0.N) :
    (dat0 V c).flushed 2 t = ((cfg0.win 2).blk t).view.read (Elt Ideal) (scaled (V c main_arg0) (V c main_v8)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  funext j
  show k0_pay1 (F := Ideal) (iblk0 V c 1 t) (iblk0 V c 0 t) j
    = scaled (V c main_arg0) (V c main_v8) (((cfg0.win 2).blk t).view.emb j)
  refine (pay_apply _ _ j).trans ?_
  obtain ⟨e00, e01, e10, e11, e20, e21⟩ := idx_facts t
  have h0 : iblk0 V c 0 t j = V c main_arg0 (((cfg0.win 2).blk t).view.emb j) := by
    show V c main_arg0 (((cfg0.win 0).blk t).view.emb j) = V c main_arg0 (((cfg0.win 2).blk t).view.emb j)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : iblk0 V c 1 t (colOfBlk j) = V c main_v8 (colOf (((cfg0.win 2).blk t).view.emb j)) := by
    show V c main_v8 (((cfg0.win 1).blk t).view.emb (colOfBlk j)) = V c main_v8 (colOf (((cfg0.win 2).blk t).view.emb j))
    refine congrArg (V c main_v8) (funext fun a => Fin.ext ?_)
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]
  rfl

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v9).slice (win0_2.rect t)).set ↔ _
  rw [View.set_slice_whole, Rect.mem_set_unit]
  exact Iff.rfl

/-- Every block row 0 … 9 is some point's. -/
theorem idx_onto : ∀ q : Fin 10, ∃ t : Fin cfg0.N, t.val = q.val :=
  (by decide +kernel : ∀ q : Fin 10, ∃ t : Fin grid0.N, t.val = q.val)

/-- The ten blocks cover the array: row r lies in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨e00, e01, e10, e11, e20, e21⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY AFTER THE REGION is the whole-array function of the two arrays as the region finds them. -/
theorem final (c : Dev nD) : (dat0 V c).arrAt 2 cfg0.N = scaled (V c main_arg0) (V c main_v8) :=
  (dat0 V c).arrAt_eq_of_cover 2 (scaled (V c main_arg0) (V c main_v8)) (fun t _ => flushed_eq V c t) cover

end Cert.KernelIdeal.NormRegion

end
-- ==== Proof.LinRegion.lean ====
/-
  The second kernel region's result as one function of the four arrays it reads. At each block of 10000 rows the
  region adds the two [10000 × 64] blocks entry by entry, multiplies the sum by the [64 × 64] weight with the weight's
  SECOND axis contracted (row r of the sum against row c of the weight: no transpose is formed), and adds the
  [1 × 64] bias row to every row. A change of float format is the identity on the extended reals and the product
  starts from the zero accumulator, so entry (r, c) of the block is
      Σ_k (a[r, k] + b[r, k]) · w[c, k]  +  bias[0, c].
  The weight and the bias are the same block at every point, the two tables move with the output, and the ten
  blocks cover the array, so after the region the output array is that function of the whole arrays.
-/
import proofs.«101020_j90615220011124_1_alg».proof.Proof.Gen.KernelIdeal.Frame
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.LinRegion

open Cert.KernelIdeal Cert.KernelIdeal.Gen
open Idealize.ShloMosaic Idealize.ShloMosaic.TcCoe Idealize.SL.Sem Idealize.ShloMosaic.ValueIdx
open Idealize.ShloMosaic.Pipeline (Dat)

/-! ## Indices -/

/-- Inside a block: row of the output entry, column k (the left factor's position). -/
abbrev lhsAt (j : S10000x64.Idx) (k : Fin 64) : S10000x64.Idx := fun a => match a with
  | ⟨0, _⟩ => ⟨(j 0).val, (j 0).isLt⟩
  | ⟨1, _⟩ => ⟨k.val, k.isLt⟩
/-- The weight's entry for output column c = j 1 and contraction position k: (c, k). -/
abbrev rhsAt (j : S10000x64.Idx) (k : Fin 64) : S64x64.Idx := fun a => match a with
  | ⟨0, _⟩ => ⟨(j 1).val, (j 1).isLt⟩
  | ⟨1, _⟩ => ⟨k.val, k.isLt⟩
/-- The bias row's entry for output column j 1. -/
abbrev biasAt (j : S10000x64.Idx) : S1x64.Idx := fun a => match a with
  | ⟨0, _⟩ => ⟨0, Nat.one_pos⟩
  | ⟨1, _⟩ => ⟨(j 1).val, (j 1).isLt⟩
/-- The same three over the whole array. -/
abbrev rowAt (i : S100000x64.Idx) (k : Fin 64) : S100000x64.Idx := fun a => match a with
  | ⟨0, _⟩ => ⟨(i 0).val, (i 0).isLt⟩
  | ⟨1, _⟩ => ⟨k.val, k.isLt⟩
abbrev wAt (i : S100000x64.Idx) (k : Fin 64) : S64x64.Idx := fun a => match a with
  | ⟨0, _⟩ => ⟨(i 1).val, (i 1).isLt⟩
  | ⟨1, _⟩ => ⟨k.val, k.isLt⟩
abbrev bAt (i : S100000x64.Idx) : S1x64.Idx := fun a => match a with
  | ⟨0, _⟩ => ⟨0, Nat.one_pos⟩
  | ⟨1, _⟩ => ⟨(i 1).val, (i 1).isLt⟩

/-- The whole-array function: entry (r, c) is Σ_k (a[r, k] + b[r, k]) · w[c, k] + bias[0, c]. -/
def affine (a b : FVec Ideal S100000x64 .f32) (w : FVec Ideal S64x64 .f32) (bias : FVec Ideal S1x64 .f32) :
    FVec Ideal S100000x64 .f32 :=
  fun i => (∑ k : Fin 64, (a (rowAt i k) + b (rowAt i k)) * w (wAt i k)) + bias (bAt i)

/-! ## The matrix product's operand positions -/

theorem lhs_dot_0 (i : S10000x64.Idx) (q : dot_S10000x64_S64x64_S10000x64_1_1_0_0_n_n.contr.Idx) :
    (dot_S10000x64_S64x64_S10000x64_1_1_0_0_n_n.lhsIdx i q 0).val = (i 0).val := by
  unfold DotDims.lhsIdx
  rw [dif_neg (show ¬(0 : Fin S10000x64.rank) ∈ dot_S10000x64_S64x64_S10000x64_1_1_0_0_n_n.lhsBatch by decide), dif_pos (show (0 : Fin S10000x64.rank) ∈ dot_S10000x64_S64x64_S10000x64_1_1_0_0_n_n.lhsNonContracting by decide)]
  rfl
theorem lhs_dot_1 (i : S10000x64.Idx) (q : dot_S10000x64_S64x64_S10000x64_1_1_0_0_n_n.contr.Idx) :
    (dot_S10000x64_S64x64_S10000x64_1_1_0_0_n_n.lhsIdx i q 1).val = (q ⟨0, by decide⟩).val :=
  dot_S10000x64_S64x64_S10000x64_1_1_0_0_n_n.lhsIdx_val_of_single rfl i q
theorem rhs_dot_0 (i : S10000x64.Idx) (q : dot_S10000x64_S64x64_S10000x64_1_1_0_0_n_n.contr.Idx) :
    (dot_S10000x64_S64x64_S10000x64_1_1_0_0_n_n.rhsIdx i q 0).val = (i 1).val := by
  unfold DotDims.rhsIdx
  rw [dif_neg (show ¬(0 : Fin S64x64.rank) ∈ dot_S10000x64_S64x64_S10000x64_1_1_0_0_n_n.rhsBatch by decide), dif_pos (show (0 : Fin S64x64.rank) ∈ dot_S10000x64_S64x64_S10000x64_1_1_0_0_n_n.rhsNonContracting by decide)]
  rfl
theorem rhs_dot_1 (i : S10000x64.Idx) (q : dot_S10000x64_S64x64_S10000x64_1_1_0_0_n_n.contr.Idx) :
    (dot_S10000x64_S64x64_S10000x64_1_1_0_0_n_n.rhsIdx i q 1).val = (q ⟨0, by decide⟩).val :=
  dot_S10000x64_S64x64_S10000x64_1_1_0_0_n_n.rhsIdx_val_of_single rfl i q

/-- The product into the zero accumulator at (r, c): the sum over k of left[r, k] · right[c, k]. -/
theorem matmul_at (l : FVec Ideal S10000x64 .bf16) (r : FVec Ideal S64x64 .bf16) (j : S10000x64.Idx) :
    FloatOps.matmul dot_S10000x64_S64x64_S10000x64_1_1_0_0_n_n none l r (constant S10000x64 .f32 0x00000000#32) j
      = ∑ k : Fin 64, l (lhsAt j k) * r (rhsAt j k) := by
  rw [Ideal.matmul_constant_zero_apply, ← Equiv.sum_comp (contrEquiv1 dot_S10000x64_S64x64_S10000x64_1_1_0_0_n_n 64 rfl rfl).symm]
  refine Finset.sum_congr rfl fun k _ => ?_
  have hk := contrEquiv1_symm_val dot_S10000x64_S64x64_S10000x64_1_1_0_0_n_n 64 rfl rfl k
  have el : dot_S10000x64_S64x64_S10000x64_1_1_0_0_n_n.lhsIdx j ((contrEquiv1 dot_S10000x64_S64x64_S10000x64_1_1_0_0_n_n 64 rfl rfl).symm k) = lhsAt j k := funext fun a => Fin.ext (by
    match a with
    | ⟨0, _⟩ => exact lhs_dot_0 _ _
    | ⟨1, _⟩ => exact (lhs_dot_1 _ _).trans hk)
  have er : dot_S10000x64_S64x64_S10000x64_1_1_0_0_n_n.rhsIdx j ((contrEquiv1 dot_S10000x64_S64x64_S10000x64_1_1_0_0_n_n 64 rfl rfl).symm k) = rhsAt j k := funext fun a => Fin.ext (by
    match a with
    | ⟨0, _⟩ => exact rhs_dot_0 _ _
    | ⟨1, _⟩ => exact (rhs_dot_1 _ _).trans hk)
  rw [el, er]

/-! ## The body's arithmetic at one entry of a block -/

theorem pay_apply (v0 v2 : FVec Ideal S10000x64 .f32) (v6 : FVec Ideal S64x64 .f32) (v9 : FVec Ideal S1x64 .f32) (j : S10000x64.Idx) :
    k1_pay1 (F := Ideal) v0 v2 v6 v9 j
      = (∑ k : Fin 64, (v0 (lhsAt j k) + v2 (lhsAt j k)) * v6 (rhsAt j k)) + v9 (biasAt j) := by
  unfold k1_pay1
  show FloatOps.matmul dot_S10000x64_S64x64_S10000x64_1_1_0_0_n_n none
        (truncf (F := Ideal) .bf16 (addf (F := Ideal) (shapeCast S10000x64 v0 shapeCasts_S10000x64_S10000x64) (shapeCast S10000x64 v2 shapeCasts_S10000x64_S10000x64)) bitsLt_bf16_f32)
        (truncf (F := Ideal) .bf16 v6 bitsLt_bf16_f32) (constant S10000x64 .f32 0x00000000#32) j
      + broadcastTo S10000x64 (shapeCast S1x64 v9 shapeCasts_S1x64_S1x64) broadcasts_S1x64_S10000x64 j = _
  rw [matmul_at, broadcastTo_apply _ broadcasts_S1x64_S10000x64 j (biasAt j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)]),
    shapeCast_self, shapeCast_self, shapeCast_self]
  rfl

theorem hz : (![0, 0] : Fin 2 → Nat) = fun _ => 0 := funext fun a => by fin_cases a <;> rfl

/-- The printed index maps over the ten points: the two tables and the output sit at block row t; the weight and the
    bias at their only block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point t writes back is block t of the whole-array function of the four arrays as the region finds them. -/
theorem flushed_eq (c : Dev nD) (t : Fin cfg1.N) :
    (dat1 V c).flushed 4 t = ((cfg1.win 4).blk t).view.read (Elt Ideal)
      (affine (V c main_v19) (V c main_v9) (V c main_arg2) (V c main_v20)) := by
  show (cfg1.win 4).cut (grid1.coords t) ((dat1 V c).after 4 t) = _
  rw [after1_4]
  unfold out1_4
  rw [View.canon_unit_zero hz]
  simp only [View.ld_unit_zero (S := S10000x64) hz, View.ld_unit_zero (S := S64x64) hz, View.ld_unit_zero (S := S1x64) hz]
  funext j
  show k1_pay1 (F := Ideal) (iblk1 V c 0 t) (iblk1 V c 1 t) (iblk1 V c 2 t) (iblk1 V c 3 t) j
    = affine (V c main_v19) (V c main_v9) (V c main_arg2) (V c main_v20) (((cfg1.win 4).blk t).view.emb j)
  refine (pay_apply _ _ _ _ j).trans ?_
  obtain ⟨e00, e01, e10, e11, e20, e21, e30, e31, e40, e41⟩ := idx_facts t
  have h0 : ∀ k : Fin 64, iblk1 V c 0 t (lhsAt j k) = V c main_v19 (rowAt (((cfg1.win 4).blk t).view.emb j) k) := fun k => by
    show V c main_v19 (((cfg1.win 0).blk t).view.emb (lhsAt j k)) = V c main_v19 (rowAt (((cfg1.win 4).blk t).view.emb j) k)
    refine congrArg (V c main_v19) (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * k.val = k.val; omega
  have h1 : ∀ k : Fin 64, iblk1 V c 1 t (lhsAt j k) = V c main_v9 (rowAt (((cfg1.win 4).blk t).view.emb j) k) := fun k => by
    show V c main_v9 (((cfg1.win 1).blk t).view.emb (lhsAt j k)) = V c main_v9 (rowAt (((cfg1.win 4).blk t).view.emb j) k)
    refine congrArg (V c main_v9) (funext fun a => Fin.ext ?_)
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 64 + 1 * k.val = k.val; omega
  have h2 : ∀ k : Fin 64, iblk1 V c 2 t (rhsAt j k) = V c main_arg2 (wAt (((cfg1.win 4).blk t).view.emb j) k) := fun k => by
    show V c main_arg2 (((cfg1.win 2).blk t).view.emb (rhsAt j k)) = V c main_arg2 (wAt (((cfg1.win 4).blk t).view.emb j) k)
    refine congrArg (V c main_arg2) (funext fun a => Fin.ext ?_)
    match a with
    | ⟨0, _⟩ => show win1_2.index t (0 : Fin 2) * 64 + 1 * (j 1).val = win1_4.index t (1 : Fin 2) * 64 + 1 * (j 1).val; omega
    | ⟨1, _⟩ => show win1_2.index t (1 : Fin 2) * 64 + 1 * k.val = k.val; omega
  have h3 : iblk1 V c 3 t (biasAt j) = V c main_v20 (bAt (((cfg1.win 4).blk t).view.emb j)) := by
    show V c main_v20 (((cfg1.win 3).blk t).view.emb (biasAt j)) = V c main_v20 (bAt (((cfg1.win 4).blk t).view.emb j))
    refine congrArg (V c main_v20) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  rw [h3]
  refine congrArg (· + V c main_v20 (bAt (((cfg1.win 4).blk t).view.emb j))) ?_
  exact Finset.sum_congr rfl fun k _ => by rw [h0 k, h1 k, h2 k]

/-- An index of the array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v21).slice (win1_4.rect t)).set ↔ _
  rw [View.set_slice_whole, Rect.mem_set_unit]
  exact Iff.rfl

/-- Every block row 0 … 9 is some point's. -/
theorem idx_onto : ∀ q : Fin 10, ∃ t : Fin cfg1.N, t.val = q.val :=
  (by decide +kernel : ∀ q : Fin 10, ∃ t : Fin grid1.N, t.val = q.val)

/-- The ten blocks cover the array: row r lies in the block of point r / 10000. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨e00, e01, e10, e11, e20, e21, e30, e31, e40, e41⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- THE OUTPUT ARRAY AFTER THE REGION is the whole-array function of the four arrays as the region finds them. -/
theorem final (c : Dev nD) :
    (dat1 V c).arrAt 4 cfg1.N = affine (V c main_v19) (V c main_v9) (V c main_arg2) (V c main_v20) :=
  (dat1 V c).arrAt_eq_of_cover 4 (affine (V c main_v19) (V c main_v9) (V c main_arg2) (V c main_v20))
    (fun t _ => flushed_eq V c t) cover

end Cert.KernelIdeal.LinRegion

end
-- ==== Proof.KernelValue.lean ====
/-
  The idealized kernel's result as a term over the launch memory. Between the launch and the return the buffers pass
  four boundaries: the first stretch of host operations computes the degree column; the first region writes the
  scaled table; the second stretch gathers its rows by the edges' source indices and adds them up by destination
  index; the second region adds the scaled table back in, multiplies by the weight and adds the bias. Each boundary's
  contents are read off the one before, down to the four argument arrays.
-/
import proofs.«101020_j90615220011124_1_alg».proof.Proof.KernelRun
import proofs.«101020_j90615220011124_1_alg».proof.Proof.NormRegion
import proofs.«101020_j90615220011124_1_alg».proof.Proof.LinRegion
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo

/-! ## The host stretches as functions of the arrays they read -/

/-- The edges' source indices: row 0 of the edge table. -/
def src (ei : (⟨S2x1000000, .i32⟩ : BufTy).Contents (Elt Ideal)) : (⟨S1000000, .i32⟩ : BufTy).Contents (Elt Ideal) :=
  shapeCast _ (extractStridedSlice S1x1000000 ![0, 0] ei slices_S2x1000000_S1x1000000_0_0) shapeCasts_S1x1000000_S1000000
/-- The edges' destination indices: row 1 of the edge table. -/
def dst (ei : (⟨S2x1000000, .i32⟩ : BufTy).Contents (Elt Ideal)) : (⟨S1000000, .i32⟩ : BufTy).Contents (Elt Ideal) :=
  shapeCast _ (extractStridedSlice S1x1000000 ![1, 0] ei slices_S2x1000000_S1x1000000_1_0) shapeCasts_S1x1000000_S1000000
/-- The degrees: a one added, for every edge, at its source index, onto zeros. -/
def degree (ei : (⟨S2x1000000, .i32⟩ : BufTy).Contents (Elt Ideal)) : (⟨S100000, .f32⟩ : BufTy).Contents (Elt Ideal) :=
  Host.scatterAdd scatter_S100000_S1000000x1_S1000000_n_0_0_1
    (broadcastInDim S100000 ![] bcast_S_S100000 (constant (F := Ideal) S_ .f32 0x00000000#32))
    (broadcastInDim S1000000x1 ![0] bcast_S1000000_S1000000x1_0 (src ei))
    (broadcastInDim S1000000 ![] bcast_S_S1000000 (constant (F := Ideal) S_ .f32 0x3F800000#32))
/-- The degrees as a column. -/
def degreeCol (ei : (⟨S2x1000000, .i32⟩ : BufTy).Contents (Elt Ideal)) : (⟨S100000x1, .f32⟩ : BufTy).Contents (Elt Ideal) :=
  shapeCast _ (degree ei) shapeCasts_S100000_S100000x1
/-- The gather's start indices: a negative source index moved up by the number of rows. -/
def rowIdx (ei : (⟨S2x1000000, .i32⟩ : BufTy).Contents (Elt Ideal)) : (⟨S1000000x1, .i32⟩ : BufTy).Contents (Elt Ideal) :=
  broadcastInDim S1000000x1 ![0] bcast_S1000000_S1000000x1_0
    (select (cmpi .slt (src ei) (broadcastInDim S1000000 ![] bcast_S_S1000000 (constantI S_ 32 0#32)))
      (addi (src ei) (broadcastInDim S1000000 ![] bcast_S_S1000000 (constantI S_ 32 100000#32))) (src ei))
/-- The aggregation: the rows of a table gathered by source index and added up by destination index, onto zeros. -/
def aggregate (xn : (⟨S100000x64, .f32⟩ : BufTy).Contents (Elt Ideal)) (ei : (⟨S2x1000000, .i32⟩ : BufTy).Contents (Elt Ideal)) :
    (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (dst ei))
    (Host.gather gather_S100000x64_S1000000x1_S1000000x64_1_0_n_n_0_1_164 xn (rowIdx ei))

variable (m : (ℓ : Loc nD τ sig) → Buf (Elt Ideal) ℓ) (ρ : Dev nD → PrngReg)

/-! ## The first region's entry -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_v1 (c : Dev nD) : W1 m ρ c (Proc.devRef .tc main_v1) = src (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = dst (m ((c : Thread nD τ).loc main_arg1)) := by
  show StableHlo.after hostOps0 (W0 m ρ c) (Proc.devRef .tc main_v3) = _
  after_results_simp <;> rfl
theorem W1_v8 (c : Dev nD) : W1 m ρ c (Proc.devRef .tc main_v8) = degreeCol (m ((c : Thread nD τ).loc main_arg1)) := by
  show StableHlo.after hostOps0 (W0 m ρ c) (Proc.devRef .tc main_v8) = _
  after_results_simp <;> rfl

/-! ## The first region's exit -/

/-- The first region leaves the scaled table in its output array. -/
theorem W2_v9 (c : Dev nD) : W2 m ρ c (Proc.devRef .tc main_v9)
    = NormRegion.scaled (m ((c : Thread nD τ).loc main_arg0)) (degreeCol (m ((c : Thread nD τ).loc main_arg1))) := by
  refine (W2_arr m ρ c 2).trans ?_
  rw [NormRegion.final (V1 m ρ) c]
  show NormRegion.scaled (W1 m ρ c (Proc.devRef .tc main_arg0)) (W1 m ρ c (Proc.devRef .tc main_v8)) = _
  rw [W1_arg0, W1_v8]
theorem W2_v1 (c : Dev nD) : W2 m ρ c (Proc.devRef .tc main_v1) = src (m ((c : Thread nD τ).loc main_arg1)) :=
  (W2_of_ne m ρ c main_v1 (by decide)).trans (W1_v1 m ρ c)
theorem W2_v3 (c : Dev nD) : W2 m ρ c (Proc.devRef .tc main_v3) = dst (m ((c : Thread nD τ).loc main_arg1)) :=
  (W2_of_ne m ρ c main_v3 (by decide)).trans (W1_v3 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)

/-! ## The second region's entry -/

theorem W3_v19 (c : Dev nD) : W3 m ρ c (Proc.devRef .tc main_v19)
    = aggregate (W2 m ρ c (Proc.devRef .tc main_v9)) (m ((c : Thread nD τ).loc main_arg1)) := by
  show StableHlo.after hostOps1 (W2 m ρ c) (Proc.devRef .tc main_v19) = _
  after_results_simp
  rw [W2_v1, W2_v3]
  rfl
theorem W3_v9 (c : Dev nD) : W3 m ρ c (Proc.devRef .tc main_v9) = W2 m ρ c (Proc.devRef .tc main_v9) := by
  show StableHlo.after hostOps1 (W2 m ρ c) (Proc.devRef .tc main_v9) = _
  after_results_simp <;> rfl
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_v20 (c : Dev nD) : W3 m ρ c (Proc.devRef .tc main_v20)
    = shapeCast _ (m ((c : Thread nD τ).loc main_arg3)) shapeCasts_S64_S1x64 := by
  show StableHlo.after hostOps1 (W2 m ρ c) (Proc.devRef .tc main_v20) = _
  after_results_simp
  rw [W2_arg3]
  rfl

/-! ## The return -/

/-- The kernel's result as a function of its four arguments. -/
def kernelResult (x : (⟨S100000x64, .f32⟩ : BufTy).Contents (Elt Ideal)) (ei : (⟨S2x1000000, .i32⟩ : BufTy).Contents (Elt Ideal))
    (w : (⟨S64x64, .f32⟩ : BufTy).Contents (Elt Ideal)) (b : (⟨S64, .f32⟩ : BufTy).Contents (Elt Ideal)) :
    (⟨S100000x64, .f32⟩ : BufTy).Contents (Elt Ideal) :=
  LinRegion.affine (aggregate (NormRegion.scaled x (degreeCol ei)) ei) (NormRegion.scaled x (degreeCol ei)) w
    (shapeCast _ b shapeCasts_S64_S1x64)

/-- The last boundary's contents of the result buffer. -/
theorem result (c : Dev nD) : W4 m ρ c (Proc.devRef .tc main_v21)
    = kernelResult (m ((c : Thread nD τ).loc main_arg0)) (m ((c : Thread nD τ).loc main_arg1))
        (m ((c : Thread nD τ).loc main_arg2)) (m ((c : Thread nD τ).loc main_arg3)) := by
  refine (W4_arr m ρ c 4).trans ?_
  rw [LinRegion.final (V3 m ρ) c]
  show LinRegion.affine (W3 m ρ c (Proc.devRef .tc main_v19)) (W3 m ρ c (Proc.devRef .tc main_v9))
    (W3 m ρ c (Proc.devRef .tc main_arg2)) (W3 m ρ c (Proc.devRef .tc main_v20)) = _
  rw [W3_v19, W3_v9, W3_arg2, W3_v20, W2_v9]
  rfl

/-- THE RUN: every weakly fair execution of the idealized kernel ends with the result at that function of the
    arguments and the arguments unchanged. -/
theorem run : θ_run defs (onTc (τ := τ) (main (F := Ideal))) ⟨m, fun _ => 0, ρ⟩ (fun r => ∀ c : Dev nD,
      r.2.mem ((c.tc : Thread nD τ).loc main_v21)
        = kernelResult (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (Cert.KernelIdeal.RunNamed.run m ρ)

end Cert.KernelIdeal.ResultValue

end
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«101020_j90615220011124_1_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.NormLaw.lean ====
/-
  Why multiplying by a reciprocal square root and dividing by a square root agree here. On the extended reals
  x · rsqrt(y) and x / sqrt(y) differ at y = 0 and at y = −∞, and agree wherever y is a positive real: there
  rsqrt(y) is the real number 1/√y and the quotient by the nonzero real √y is the product with 1/√y. The number
  under the root is a node's degree plus one, and a degree is a count — the sum of a one for every edge whose
  source index is that node, starting from zero — so it is a nonnegative real and the degree plus one is positive.
-/
import Idealize.ShloMosaic.PureOps.Ideal
import Idealize.ShloMosaic.PureOps.Ideal.Laws
import Idealize.ShloMosaic.Lib.ValueIdx
import proofs.«101020_j90615220011124_1_alg».proof.Proof.LibGatherScatter

open scoped BigOperators

noncomputable section

namespace Cert.NormLaw

open Idealize.ShloMosaic Idealize.ShloMosaic.ValueIdx Idealize.ShloMosaic.StableHlo.Predicate

/-- The float pattern of 1.0 denotes the real number one. -/
theorem ofBits_one : Ideal.ofBits .f32 0x3F800000#32 = ((1 : ℝ) : EReal) := by
  simp [Ideal.ofBits, Ideal.ieee, -EReal.coe_mul]; norm_num

/-- A sum of ones over a finite set is the set's size, a nonnegative real. -/
theorem sum_ones {ι : Type} [DecidableEq ι] (s : Finset ι) (u : ι → EReal) (hu : ∀ e, u e = ((1 : ℝ) : EReal)) :
    ∑ e ∈ s, u e = ((s.card : ℝ) : EReal) := by
  induction s using Finset.induction_on with
  | empty => simp
  | insert a s ha ih =>
    rw [Finset.sum_insert ha, ih, hu a, Finset.card_insert_of_notMem ha, ← EReal.coe_add]
    push_cast
    rw [add_comm]

/-- A DEGREE IS A NONNEGATIVE REAL: scattering ones onto zeros, entry q ends as the number of updates whose index,
    read signed, is q. -/
theorem degree_real {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ .f32) (idx : IVec ⟨2, ![n, 1]⟩ w) (upd : FVec Ideal ⟨1, ![n]⟩ .f32)
    (hx : ∀ i, x i = 0) (hu : ∀ e, upd e = ((1 : ℝ) : EReal)) (q : Fin G) :
    ∃ r : ℝ, 0 ≤ r ∧ Host.scatterAdd (F := Ideal) d x idx upd (ix1 q) = ((r : ℝ) : EReal) := by
  refine ⟨((Finset.univ.filter (fun e : Fin n => (idx (ixP e)).toInt = (q.val : ℤ))).card : ℝ), Nat.cast_nonneg _, ?_⟩
  rw [Cert.LibGatherScatter.scatterAdd_vec_apply d huw hiw hsd hivd x idx upd q, hx, zero_add]
  exact sum_ones _ (fun e => upd (ix1 e)) (fun e => hu _)

/-- THE LAW: for a real r ≥ 0, x · rsqrt(r + 1) = x / sqrt(r + 1) on the extended reals, for every x. -/
theorem mul_rsqrt_eq_div_sqrt (x : EReal) (r : ℝ) (hr : 0 ≤ r) :
    x * Ideal.rsqrt (((r : ℝ) : EReal) + ((1 : ℝ) : EReal)) = Ideal.div x (Ideal.sqrt (((r : ℝ) : EReal) + ((1 : ℝ) : EReal))) := by
  have hpos : 0 < r + 1 := by linarith
  have hs : Real.sqrt (r + 1) ≠ 0 := (Real.sqrt_pos.mpr hpos).ne'
  rw [← EReal.coe_add, Ideal.rsqrt_coe, Ideal.sqrt_coe, if_neg (not_lt.mpr hpos.le), if_neg hpos.ne',
    if_neg (not_lt.mpr hpos.le), Ideal.div_coe hs, one_div]

end Cert.NormLaw

end
-- ==== Proof.Bridge.lean ====
/-
  The two programs compute one function. Both scale the table by the node degrees, gather the scaled rows by the
  edges' source indices, add them up by destination index, add the scaled table back in, multiply by the weight with
  the weight's second axis contracted, and add the bias. They differ in two spellings. The kernel scales by the
  reciprocal square root of (degree + 1) where the reference divides by its square root: equal because a degree is a
  nonnegative real, so degree + 1 is a positive real, where the two agree for every extended-real numerator. And the
  kernel contracts the weight's second axis directly where the reference transposes the weight and contracts its
  first: the same sum of products, term by term. The gather and the scatter-add are the same operations applied to
  equal tables, so they are never opened.
-/
import proofs.«101020_j90615220011124_1_alg».proof.Proof.KernelValue
import proofs.«101020_j90615220011124_1_alg».proof.Proof.NormLaw
import proofs.«101020_j90615220011124_1_alg».proof.Proof.Gen.ReferenceIdeal.Read

set_option maxRecDepth 16384

open scoped BigOperators

noncomputable section

namespace Cert.Bridge

open Idealize.ShloMosaic Idealize.ShloMosaic.ValueIdx
open Cert.KernelIdeal.ResultValue Cert.KernelIdeal.NormRegion Cert.KernelIdeal.LinRegion
open Cert.ReferenceIdeal.Read

/-- The kernel's degree vector is the reference's: the same scatter of ones onto zeros by the source indices. -/
theorem degree_eq (ei : (⟨Cert.ReferenceIdeal.S2x1000000, .i32⟩ : BufTy).Contents (Elt Ideal)) :
    degree ei = val_main_v7 (F := Ideal) ei := rfl

/-- A node's degree is a nonnegative real. -/
theorem degree_real (ei : (⟨Cert.ReferenceIdeal.S2x1000000, .i32⟩ : BufTy).Contents (Elt Ideal)) (q : Fin 100000) :
    ∃ r : ℝ, 0 ≤ r ∧ degree ei (ix1 q) = ((r : ℝ) : EReal) := by
  unfold degree
  exact Cert.NormLaw.degree_real Cert.KernelIdeal.scatter_S100000_S1000000x1_S1000000_n_0_0_1 rfl rfl rfl rfl _ _ _
    (fun i => Ideal.ofBits_zero_f32) (fun e => Cert.NormLaw.ofBits_one) q

/-- THE SCALED TABLES AGREE: x · rsqrt(degree + 1) is x / sqrt(degree + 1) at every entry. -/
theorem scaled_eq (x : (⟨Cert.ReferenceIdeal.S100000x64, .f32⟩ : BufTy).Contents (Elt Ideal))
    (ei : (⟨Cert.ReferenceIdeal.S2x1000000, .i32⟩ : BufTy).Contents (Elt Ideal)) :
    scaled x (degreeCol ei) = val_main_v13 (F := Ideal) x ei := by
  funext i
  have hi0 : (i 0).val < 100000 := (i 0).isLt
  obtain ⟨r, hr, hd⟩ := degree_real ei ⟨(i 0).val, hi0⟩
  rw [val_main_v13_apply, val_main_v12_apply, val_main_v11_apply, val_main_v10_apply, val_main_v9_apply,
    val_main_v8_apply, val_main_cst_1_apply]
  have hj : idx_main_v11 (idx_main_v12 i) = ix1 (⟨(i 0).val, hi0⟩ : Fin 100000) :=
    funext fun a => match a with | ⟨0, _⟩ => rfl
  have hcol : degreeCol ei (colOf i) = degree ei (ix1 (⟨(i 0).val, hi0⟩ : Fin 100000)) := by
    unfold degreeCol
    exact shapeCast_apply (degree ei) Cert.KernelIdeal.Facts₀.shapeCasts_S100000_S100000x1 (colOf i) (ix1 (⟨(i 0).val, hi0⟩ : Fin 100000))
      (by rewrite [Shape.rowMajor_val_one, Shape.rowMajor_val_two]; show (i 0).val = (i 0).val * 1 + 0; omega)
  show x i * Ideal.rsqrt (degreeCol ei (colOf i) + Ideal.ofBits .f32 0x3F800000#32) = _
  simp only [Ideal.hostDivf_def, Ideal.hostUnary_sqrt_def, Ideal.addf_def, Ideal.ofBits_def]
  rw [hcol, hj, ← degree_eq, hd, Cert.NormLaw.ofBits_one]
  exact Cert.NormLaw.mul_rsqrt_eq_div_sqrt (x i) r hr

/-- The aggregation of the reference's scaled table is the reference's aggregation stage: the same gather and the same
    scatter-add over the same indices. -/
theorem aggregate_eq (x : (⟨Cert.ReferenceIdeal.S100000x64, .f32⟩ : BufTy).Contents (Elt Ideal))
    (ei : (⟨Cert.ReferenceIdeal.S2x1000000, .i32⟩ : BufTy).Contents (Elt Ideal)) :
    aggregate (val_main_v13 (F := Ideal) x ei) ei = val_main_v23 (F := Ideal) x ei := rfl

/-- The bias as a row, read at an output entry's column, is the bias at that column. -/
theorem bias_eq (b : (⟨Cert.ReferenceIdeal.S64, .f32⟩ : BufTy).Contents (Elt Ideal)) (i : Cert.ReferenceIdeal.S100000x64.Idx) :
    shapeCast Cert.KernelIdeal.S1x64 b Cert.KernelIdeal.Facts₀.shapeCasts_S64_S1x64 (bAt i) = b (idx_main_v27 (idx_main_v28 i)) :=
  shapeCast_apply b Cert.KernelIdeal.Facts₀.shapeCasts_S64_S1x64 (bAt i) (idx_main_v27 (idx_main_v28 i))
    (by rewrite [Shape.rowMajor_val_one, Shape.rowMajor_val_two]; show (i 1).val = 0 * 64 + (i 1).val; omega)

/-- THE RESULTS AGREE: the kernel's result function is the reference's last stage, entry by entry. -/
theorem result_eq (x : (⟨Cert.ReferenceIdeal.S100000x64, .f32⟩ : BufTy).Contents (Elt Ideal))
    (ei : (⟨Cert.ReferenceIdeal.S2x1000000, .i32⟩ : BufTy).Contents (Elt Ideal))
    (w : (⟨Cert.ReferenceIdeal.S64x64, .f32⟩ : BufTy).Contents (Elt Ideal))
    (b : (⟨Cert.ReferenceIdeal.S64, .f32⟩ : BufTy).Contents (Elt Ideal)) :
    kernelResult x ei w b = val_main_v29 (F := Ideal) x ei w b := by
  funext i
  rw [val_main_v29_apply, val_main_v26_apply, val_main_v28_apply, val_main_v27_apply]
  unfold kernelResult
  rw [scaled_eq, aggregate_eq]
  show (∑ k : Fin 64, (val_main_v23 (F := Ideal) x ei (rowAt i k) + val_main_v13 (F := Ideal) x ei (rowAt i k)) * w (wAt i k))
      + shapeCast Cert.KernelIdeal.S1x64 b Cert.KernelIdeal.Facts₀.shapeCasts_S64_S1x64 (bAt i)
    = (∑ k : Fin 64, val_main_v24 (F := Ideal) x ei (lidx_main_v26 i k) * val_main_v25 (F := Ideal) w (ridx_main_v26 i k))
      + b (idx_main_v27 (idx_main_v28 i))
  rw [bias_eq]
  refine congrArg (· + b (idx_main_v27 (idx_main_v28 i))) (Finset.sum_congr rfl fun k _ => ?_)
  rw [val_main_v24_apply, val_main_v25_apply]
  have e1 : rowAt i k = lidx_main_v26 i k := rfl
  have e2 : wAt i k = idx_main_v25 (ridx_main_v26 i k) := funext fun a => match a with
    | ⟨0, _⟩ => rfl
    | ⟨1, _⟩ => rfl
  rw [e1, e2]
  rfl

end Cert.Bridge

end
-- ==== Proof.lean ====
/-
  The certificate: a degree-normalized graph convolution as two kernel regions among host gathers and scatter-adds,
  against its plain jnp reference.

  Both programs compute, for a table x of node features, an edge list, a weight W and a bias b,
      out[r, c] = Σ_k (agg[r, k] + xn[r, k]) · W[c, k] + b[c],
  where xn is x scaled row by row by (degree + 1)^(−1/2), the degree of a node being the number of edges whose source
  index it is, and agg adds, for every edge, row src of xn into row dst. The kernel writes the scaling as a product
  with a reciprocal square root and the reference as a quotient by a square root; a degree is a nonnegative real, so
  degree + 1 is a positive real and the two agree on the extended reals whatever x holds (no finiteness of x is used).
  The kernel's changes of float format around the matrix product are the identity at the ideal instance, and the
  reference's transposed weight contracted on its first axis is the kernel's weight contracted on its second.

  The three frames: the two kernels' are the generated frame certificates; the reference has no kernel, and its frame is
  its generated run with the result dropped. The ideal pass rewrote nothing, so the idealization claim is trivial.
  The value claim: the idealized kernel's run with its result named (the generated launch called once more), each
  region's output read as one whole-array function of the arrays it finds, the host stretches read back to the
  arguments, and that function shown equal, entry by entry, to the reference's last stage.
-/
import proofs.«101020_j90615220011124_1_alg».proof.Defs
import proofs.«101020_j90615220011124_1_alg».proof.Proof.Gen.Kernel
import proofs.«101020_j90615220011124_1_alg».proof.Proof.Gen.Kernel.Skeleton
import proofs.«101020_j90615220011124_1_alg».proof.Proof.Gen.Kernel.Launch
import proofs.«101020_j90615220011124_1_alg».proof.Proof.Gen.Kernel.Points
import proofs.«101020_j90615220011124_1_alg».proof.Proof.Gen.Kernel.Frame
import proofs.«101020_j90615220011124_1_alg».proof.Proof.Gen.KernelIdeal
import proofs.«101020_j90615220011124_1_alg».proof.Proof.Gen.KernelIdeal.Skeleton
import proofs.«101020_j90615220011124_1_alg».proof.Proof.Gen.KernelIdeal.Launch
import proofs.«101020_j90615220011124_1_alg».proof.Proof.Gen.KernelIdeal.Points
import proofs.«101020_j90615220011124_1_alg».proof.Proof.Gen.KernelIdeal.Frame
import proofs.«101020_j90615220011124_1_alg».proof.Proof.Gen.ReferenceIdeal
import proofs.«101020_j90615220011124_1_alg».proof.Proof.Gen.ReferenceIdeal.Run
import proofs.«101020_j90615220011124_1_alg».proof.Proof.Gen.ReferenceIdeal.Read
import proofs.«101020_j90615220011124_1_alg».proof.Proof.Gen.Pre_finite_inputs
import proofs.«101020_j90615220011124_1_alg».proof.Proof.KernelValue
import proofs.«101020_j90615220011124_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result at one function of the arguments: the
    kernel's at its two regions' closed forms composed with the host stretches, the reference's at its last stage. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono
    (fun _ h c => ⟨(h c).1.trans ((Cert.ReferenceIdeal.Read.val_main_v29_eq _ _ _ _).trans ?_), (h c).2⟩)
    (Cert.ReferenceIdeal.Value.run (F := Ideal) m' ρ')
  rw [(hagree c).1, (hagree c).2.1, (hagree c).2.2.1, (hagree c).2.2.2]
  exact (Cert.Bridge.result_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
